-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x40 : Shape := ⟨2, ![2097152, 40]⟩
abbrev S_ : Shape := ⟨0, ![]⟩

class Facts : Prop where
  bcast_S_S2097152x40 : S_.BroadcastsInDim S2097152x40 (![] : Fin 0 → Fin S2097152x40.rank)
  reducesTo_S2097152x40_S_d0_1 : S2097152x40.ReducesTo [0, 1] S_
  h_S_ : 0 < S_.numel

variable [Facts]

def fn {F : FTy → Type} [FloatOps F] (main_arg0 : FVec F S2097152x40 .f32) (main_arg1 : FVec F S2097152x40 .f32) : IVec S_ 1 :=
  let main_v0 : FVec F S2097152x40 .f32 := Host.absf main_arg0
  let main_cst : FVec F S_ .f32 := constant S_ .f32 0x7F800000#32
  let main_v1 : FVec F S2097152x40 .f32 := broadcastInDim S2097152x40 ![] bcast_S_S2097152x40 main_cst
  let main_v2 : IVec S2097152x40 1 := cmpf .olt main_v0 main_v1
  let main_c : IVec S_ 1 := constantI S_ 1 1#1
  let main_v3 : IVec S_ 1 := (fun x v => Host.reduce IntOp.andi x v reducesTo_S2097152x40_S_d0_1 h_S_) main_v2 main_c
  let main_v4 : FVec F S2097152x40 .f32 := Host.absf main_arg1
  let main_cst_0 : FVec F S_ .f32 := constant S_ .f32 0x7F800000#32
  let main_v5 : FVec F S2097152x40 .f32 := broadcastInDim S2097152x40 ![] bcast_S_S2097152x40 main_cst_0
  let main_v6 : IVec S2097152x40 1 := cmpf .olt main_v4 main_v5
  let main_c_1 : IVec S_ 1 := constantI S_ 1 1#1
  let main_v7 : IVec S_ 1 := (fun x v => Host.reduce IntOp.andi x v reducesTo_S2097152x40_S_d0_1 h_S_) main_v6 main_c_1
  let main_v8 : IVec S_ 1 := andi main_v3 main_v7
  main_v8
-- ==== Kernel.lean ====
abbrev S2097152x40 : Shape := ⟨2, ![2097152, 40]⟩
abbrev S16x128 : Shape := ⟨2, ![16, 128]⟩
abbrev S8192x40 : Shape := ⟨2, ![8192, 40]⟩
abbrev S8x128 : Shape := ⟨2, ![8, 128]⟩
abbrev S1x1 : Shape := ⟨2, ![1, 1]⟩
abbrev S8192 : Shape := ⟨1, ![8192]⟩
abbrev S8192x1 : Shape := ⟨2, ![8192, 1]⟩
abbrev S1x8192 : Shape := ⟨2, ![1, 8192]⟩
abbrev S1 : Shape := ⟨1, ![1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x40, .f32⟩
  | .local _ .vmem, ⟨1, _⟩ => ⟨S8192x40, .f32⟩
  | .local _ .vmem, ⟨2, _⟩ => ⟨S8192x40, .f32⟩
  | .local _ .vmem, ⟨3, _⟩ => ⟨S8192x40, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S2097152x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v30 : BitVec 1 := Scalar.cmpi .eq arg1 c127_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x40_S8192x40_0_0 : ∀ a, (![0, 0] : Fin 2 → Nat) a + S8192x40.size a ≤ S8192x40.size a
  h_S8192x40 : 0 < S8192x40.numel
  reduces_S8192x40_S8192 : S8192x40.Reduces [1] S8192
  shapeCasts_S8192_S8192x1 : S8192.ShapeCasts S8192x1
  broadcasts_S8192x1_S8192x40 : S8192x1.Broadcasts S8192x40
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S2097152x40.size a
  hwx0_0 : ∀ i : grid0.Coords, EltTy.bits .f32 = 32 ∨ (Rect.block (s := S2097152x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x40.size a ≤ S2097152x40.size a
  hwx0_1 : ∀ i : grid0.Coords, EltTy.bits .f32 = 32 ∨ (Rect.block (s := S2097152x40) S8192x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2097152x40 : Shape := ⟨2, ![2097152, 40]⟩
abbrev S_ : Shape := ⟨0, ![]⟩
abbrev S2097152 : Shape := ⟨1, ![2097152]⟩
abbrev S2097152x1 : Shape := ⟨2, ![2097152, 1]⟩

abbrev nBuf : Space → Nat
  | .hbm => 25
  | .vmem => 0
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S_, .f32⟩
  | .hbm, ⟨3, _⟩ => ⟨S2097152, .f32⟩
  | .hbm, ⟨4, _⟩ => ⟨S_, .f32⟩
  | .hbm, ⟨5, _⟩ => ⟨S2097152, .f32⟩
  | .hbm, ⟨6, _⟩ => ⟨S2097152, .f32⟩
  | .hbm, ⟨7, _⟩ => ⟨S2097152x1, .f32⟩
  | .hbm, ⟨8, _⟩ => ⟨S2097152x40, .f32⟩
  | .hbm, ⟨9, _⟩ => ⟨S2097152x40, .f32⟩
  | .hbm, ⟨10, _⟩ => ⟨S2097152x40, .f32⟩
  | .hbm, ⟨11, _⟩ => ⟨S_, .f32⟩
  | .hbm, ⟨12, _⟩ => ⟨S2097152, .f32⟩
  | .hbm, ⟨13, _⟩ => ⟨S2097152x1, .f32⟩
  | .hbm, ⟨14, _⟩ => ⟨S2097152x1, .f32⟩
  | .hbm, ⟨15, _⟩ => ⟨S2097152x40, .f32⟩
  | .hbm, ⟨16, _⟩ => ⟨S2097152x40, .f32⟩
  | .hbm, ⟨17, _⟩ => ⟨S2097152x40, .f32⟩
  | .hbm, ⟨18, _⟩ => ⟨S_, .f32⟩
  | .hbm, ⟨19, _⟩ => ⟨S2097152, .f32⟩
  | .hbm, ⟨20, _⟩ => ⟨S2097152, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S2097152x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S2097152x40_S2097152_d1 : S2097152x40.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x40_0_1 : S2097152x1.BroadcastsInDim S2097152x40 (![0, 1] : Fin 2 → Fin S2097152x40.rank)
  reducesTo_S2097152_S_d0 : S2097152.ReducesTo [0] S_

variable [Facts₀]

class Facts : Prop extends Facts₀ where

variable [Facts]
-- ==== Proof.FiniteInputs.lean ====
/-
  What the precondition says of the logits: every entry is a real number.

  The precondition is `all (|input| < +∞) ∧ all (|target| < +∞)`. An `all` that is true is true at every entry, and on
  the extended reals `max x (-x) < +∞` says `x < +∞` and `-x < +∞`, that is, `x` is neither infinity.
-/
import proofs.«111683_j20624432956049_1_alg».proof.Pre_finite_inputs
import Idealize.ShloMosaic.Lib.ReduceAll
import Idealize.ShloMosaic.Lib.ValueIdx
import Idealize.ShloMosaic.PureOps.Ideal.Laws

noncomputable section

namespace Cert.SoftCE

open Idealize.ShloMosaic Cert.Pre_finite_inputs

instance subsingleton_scalar_idx : Subsingleton S_.Idx := ⟨fun a b => funext fun d => d.elim0⟩

/-- An extended real whose absolute value is below +∞ is neither infinity. -/
theorem real_of_abs_lt_top (x : EReal) (h : max x (-x) < ⊤) : x ≠ ⊥ ∧ x ≠ ⊤ := by
  have h1 : x < ⊤ := lt_of_le_of_lt (le_max_left _ _) h
  have h2 : -x < ⊤ := lt_of_le_of_lt (le_max_right _ _) h
  refine ⟨fun hb => ?_, h1.ne⟩
  rw [hb, EReal.neg_bot] at h2
  exact lt_irrefl _ h2

/-- Under the precondition every logit is a real number. -/
theorem input_real [Facts] (x t : FVec Ideal S2097152x40 .f32)
    (h : fn (F := Ideal) x t = fun _ => 1#1) (i : S2097152x40.Idx) : x i ≠ ⊥ ∧ x i ≠ ⊤ := by
  have h0 := congrFun h ValueIdx.ix0
  dsimp only [fn] at h0
  obtain ⟨hx, -⟩ := IntOp.andi_eq_one.mp h0
  have hi := Host.reduce_andi_all _ _ _ _ _ hx i
  have hc : Ideal.cmp .olt (max (x i) (-(x i))) (Ideal.ofBits .f32 0x7F800000#32) = 1#1 := hi
  have htop : Ideal.ofBits .f32 0x7F800000#32 = ⊤ := by simp [Ideal.ofBits, Ideal.ieee]
  rw [htop] at hc
  have hlt : max (x i) (-(x i)) < ⊤ := by
    by_contra hn
    simp only [Ideal.cmp, decide_eq_false hn] at hc
    exact absurd hc (by decide)
  exact real_of_abs_lt_top _ hlt

end Cert.SoftCE

end
-- ==== Proof.Pieces.lean ====
/-
  What one run of the body leaves behind, case by case.

  The body keeps a 1×1 running total in a scratch buffer. At the first tile of a core's share it stores zero there,
  reads it back and stores zero plus the tile's total; at every other tile it reads the total the tile before left and
  stores that plus the tile's total. At the last tile of a core's share it also reads the new total back and fills the
  core's 8×128 output block with it. Each of these is one store through the whole buffer, so what the buffer holds
  afterwards is that store's value.
-/
import proofs.«111683_j20624432956049_1_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First tile of a share: the total becomes zero plus the tile's total. -/
theorem scratch_first (c : Dev nD) (i : grid0.Coords) (a2 : Memref sig .tc .vmem S8192x40 .f32) (h2 : a2.IsWhole)
    (a3 : Memref sig .tc .vmem S8192x40 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S8192x40 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S8192x40) hz]

/-- A middle tile: the total becomes the previous total plus the tile's total. -/
theorem scratch_middle (c : Dev nD) (i : grid0.Coords) (a2 : Memref sig .tc .vmem S8192x40 .f32) (h2 : a2.IsWhole)
    (a3 : Memref sig .tc .vmem S8192x40 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S8192x40 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S1x1) hz]
  simp only [View.readAt_eq_ld, h2.read_unread, h3.read_unread, h5.read_unread, View.ld_unit_zero (S := S8192x40) hz,
    View.ld_unit_zero (S := S1x1) hz]

/-- The last tile of a share: the total makes the same step as at a middle tile. -/
theorem scratch_last (c : Dev nD) (i : grid0.Coords) (a2 : Memref sig .tc .vmem S8192x40 .f32) (h2 : a2.IsWhole)
    (a3 : Memref sig .tc .vmem S8192x40 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S8192x40 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) hz]
  simp only [View.readAt_eq_ld, h2.read_unread, h3.read_unread, h5.read_unread, View.ld_unit_zero (S := S8192x40) hz,
    View.ld_unit_zero (S := S1x1) hz]

/-- The last tile of a share also fills the share's output block with the new total. -/
theorem out_last (c : Dev nD) (i : grid0.Coords) (a2 : Memref sig .tc .vmem S8192x40 .f32) (h2 : a2.IsWhole)
    (a3 : Memref sig .tc .vmem S8192x40 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S8192x40 .f32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S8x128) hz, View.readCov_unit_zero (S := S1x1) _ hz]
  simp only [View.readAt_eq_ld, h2.read_unread, h3.read_unread, h5.read_unread, View.ld_unit_zero (S := S8192x40) hz,
    View.ld_unit_zero (S := S1x1) hz]

end Cert.KernelIdeal.Acc

end
-- ==== Proof.RowLoss.lean ====
/-
  Soft-label cross entropy, row by row, on the extended reals.

  For a row of logits `a` and a row of weights `b` (both of `C` entries) put `M = max_j a_j` (folded from -∞) and
  `L = log (Σ_j exp (a_j - M))`. The row's loss is `-Σ_j b_j · log_softmax(a)_j`, and there are two ways of grouping the
  log-softmax: `(a_j - M) - L` (shift by the maximum first) and `a_j - (M + L)` (subtract the log-sum-exp at once).
  On the extended reals the two agree as soon as `M` is a real number, which it is when every logit is: then
  `-(M + L) = -M - L` whatever `L` is, and the rest is associativity of `+`.

  The mean over `N = A·B` rows is then one sum over all rows, however the rows are dealt into `A` consecutive
  groups of `B`: addition on the extended reals is commutative and associative.
-/
import Idealize.ShloMosaic.PureOps.Ideal.Laws
import Idealize.ShloMosaic.Lib.ValueIdx
import Mathlib.Data.Finset.Fold
import Mathlib.Algebra.BigOperators.Fin

noncomputable section

namespace Cert.SoftCE

open Idealize.ShloMosaic Idealize.ShloMosaic.ValueIdx

variable {C : ℕ}

/-- The largest entry of a row, folded from -∞. -/
def rowMax (a : Fin C → EReal) : EReal := (Finset.univ : Finset (Fin C)).fold max ⊥ a

/-- `log Σ_j exp (a_j - max a)`. -/
def logSumExp (a : Fin C → EReal) : EReal := Ideal.log (∑ j, Ideal.exp (a j - rowMax a))

/-- The row's loss with the log-softmax grouped as `(a_j - M) - L`, negated at the end. -/
def lossShift (a b : Fin C → EReal) : EReal := -(∑ j, b j * ((a j - rowMax a) - logSumExp a))

/-- The row's loss with the log-softmax grouped as `a_j - (M + L)`, the sign taken as `0 - ·`. -/
def lossLse (a b : Fin C → EReal) : EReal := 0 - ∑ j, b j * (a j - (rowMax a + logSumExp a))

/-- A row with a finite entry has a maximum above -∞. -/
theorem rowMax_ne_bot {a : Fin C → EReal} (j0 : Fin C) (h : a j0 ≠ ⊥) : rowMax a ≠ ⊥ := by
  have hlt : ⊥ < rowMax a :=
    (Finset.lt_fold_max ⊥).mpr (Or.inr ⟨j0, Finset.mem_univ _, bot_lt_iff_ne_bot.mpr h⟩)
  exact hlt.ne'

/-- A row with no entry +∞ has a maximum below +∞. -/
theorem rowMax_ne_top {a : Fin C → EReal} (h : ∀ j, a j ≠ ⊤) : rowMax a ≠ ⊤ := by
  have hlt : rowMax a < ⊤ :=
    (Finset.fold_max_lt ⊤).mpr ⟨bot_lt_top, fun j _ => lt_top_iff_ne_top.mpr (h j)⟩
  exact hlt.ne

/-- Subtracting a sum whose first term is real is subtracting its terms one after the other. -/
theorem sub_add_of_real (x M L : EReal) (hb : M ≠ ⊥) (ht : M ≠ ⊤) : x - (M + L) = (x - M) - L := by
  rw [sub_eq_add_neg x (M + L), EReal.neg_add (Or.inl hb) (Or.inl ht), sub_eq_add_neg (-M) L, ← add_assoc,
    ← sub_eq_add_neg x M, ← sub_eq_add_neg (x - M) L]

/-- The two groupings give one loss on a row of real logits. -/
theorem lossLse_eq_lossShift (a b : Fin C → EReal) (j0 : Fin C) (hb : a j0 ≠ ⊥) (ht : ∀ j, a j ≠ ⊤) :
    lossLse a b = lossShift a b := by
  unfold lossLse lossShift
  rw [zero_sub]
  refine congrArg Neg.neg (Finset.sum_congr rfl fun j _ => ?_)
  rw [sub_add_of_real _ _ _ (rowMax_ne_bot j0 hb) (rowMax_ne_top ht)]

/-! ## All rows: one sum, dealt into consecutive groups -/

/-- A sum over `A·B` consecutive positions is the sum over `A` groups of the sums over each group's `B` positions. -/
theorem sum_groups {M : Type*} [AddCommMonoid M] (A B : ℕ) (g : Fin (A * B) → M) :
    ∑ R : Fin (A * B), g R = ∑ n : Fin A, ∑ r : Fin B, g (finProdFinEquiv (n, r)) := by
  rw [← Fintype.sum_prod_type (f := fun p : Fin A × Fin B => g (finProdFinEquiv p))]
  exact (Fintype.sum_equiv finProdFinEquiv _ _ (fun _ => rfl)).symm

variable {A B : ℕ}

/-- Row `r` of group `n`, among all `A·B` rows. -/
def rowOf (n : Fin A) (r : Fin B) : Fin (A * B) := finProdFinEquiv (n, r)

theorem rowOf_val (n : Fin A) (r : Fin B) : (rowOf n r).val = n.val * B + r.val := by
  unfold rowOf
  rw [finProdFinEquiv_apply_val]
  show r.val + B * n.val = _
  rw [Nat.mul_comm, Nat.add_comm]

/-- Row `R` of an `[A·B, C]` array. -/
def rowAt (X : (⟨2, ![A * B, C]⟩ : Shape).Idx → EReal) (R : Fin (A * B)) : Fin C → EReal := fun j => X (ix2 R j)

/-- The sum of all rows' losses (first grouping). -/
def totalLoss (X T : (⟨2, ![A * B, C]⟩ : Shape).Idx → EReal) : EReal :=
  ∑ R : Fin (A * B), lossShift (rowAt X R) (rowAt T R)

/-- Group `n`'s share: the sum of its `B` rows' losses (second grouping). -/
def groupLoss (X T : (⟨2, ![A * B, C]⟩ : Shape).Idx → EReal) (n : Fin A) : EReal :=
  ∑ r : Fin B, lossLse (rowAt X (rowOf n r)) (rowAt T (rowOf n r))

/-- With every logit real, the groups' shares add up to the sum over all rows. -/
theorem sum_groupLoss (X T : (⟨2, ![A * B, C]⟩ : Shape).Idx → EReal) (j0 : Fin C)
    (hfin : ∀ i, X i ≠ ⊥ ∧ X i ≠ ⊤) : ∑ n : Fin A, groupLoss X T n = totalLoss X T := by
  unfold totalLoss groupLoss
  rw [sum_groups A B]
  refine Finset.sum_congr rfl fun n _ => Finset.sum_congr rfl fun r _ => ?_
  exact lossLse_eq_lossShift _ _ j0 (hfin _).1 (fun j => (hfin _).2)

end Cert.SoftCE

end
-- ==== Proof.LibKeepdimsColumn.lean ====
/-
  A vector of `n` entries reshaped to a column `[n, 1]` (what a row reduction with keepdims leaves): the entry at
  `(k, 0)` of the column is entry `k` of the vector. Both sit at row-major position `k`.
-/
import Idealize.ShloMosaic.Lib.ValueIdx
import Idealize.ShloMosaic.Lib.Pipeline.Value

namespace Idealize.ShloMosaic.ValueIdx

variable {α : Type}

/-- An `[n]` array cast to `[n, 1]` reads, at `(k, u)`, the operand at `k`, whatever the unit coordinate `u`.
    (With `n = 1` this is also the cast `[1] → [1, 1]`.) -/
theorem shapeCast_a_a1_apply {n : ℕ} (x : (⟨1, ![n]⟩ : Shape).Idx → α) (h : (⟨1, ![n]⟩ : Shape).ShapeCasts ⟨2, ![n, 1]⟩)
    (k : Fin n) (u : Fin 1) : shapeCast ⟨2, ![n, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Idealize.ShloMosaic.ValueIdx
-- ==== Proof.TileSum.lean ====
/-
  One tile of the kernel: what its body adds to the running total.

  The body loads a block `x` of 8192 rows of logits and the matching block `t` of weights, and adds to the carried
  1×1 total one number: the sum over the block's rows `k` of

      0 - Σ_j t[k,j] · (x[k,j] - (M_k + log Σ_j exp (x[k,j] - M_k))),     M_k = max_j x[k,j].

  Each intermediate vector of the body is named here and read at an index; the body's stored value is their
  composition by unfolding.
-/
import proofs.«111683_j20624432956049_1_alg».proof.Proof.Gen.KernelIdeal.Skeleton
import proofs.«111683_j20624432956049_1_alg».proof.Proof.RowLoss
import proofs.«111683_j20624432956049_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.SoftCE

/-- Row `k` of a block. -/
def row (x : FVec Ideal S8192x40 .f32) (k : Fin 8192) : Fin 40 → EReal := fun j => x (ix2 k j)

/-- Column `j` put back into row index `k`. -/
theorem lift_row (h : S8192x40.Reduces [1] S8192) (k : Fin 8192) (j : Fin 40) : h.lift (ix1 k) j = ix2 k j := by
  funext c
  apply Fin.ext
  match c with
  | ⟨0, _⟩ => rfl
  | ⟨1, _⟩ => rfl

/-- Position `k` put back into the one row of the flattened losses. -/
theorem lift_flat (h : S1x8192.Reduces [1] S1) (k : Fin 8192) : h.lift (ix1 (0 : Fin 1)) k = ix2 (0 : Fin 1) k := by
  funext c
  apply Fin.ext
  match c with
  | ⟨0, _⟩ => rfl
  | ⟨1, _⟩ => rfl

theorem neg_inf_word : Ideal.ofBits .f32 0xFF800000#32 = ⊥ := by simp [Ideal.ofBits, Ideal.ieee]

section
variable (x t : FVec Ideal S8192x40 .f32)

/-- Each row's maximum. -/
def vMax : FVec Ideal S8192 .f32 :=
  multiReduction .maximumf [1] S8192 x 0xFF800000#32 reduces_S8192x40_S8192 (.inl rfl) rfl
/-- The same as a column. -/
def vMaxCol : FVec Ideal S8192x1 .f32 := shapeCast S8192x1 (vMax x) shapeCasts_S8192_S8192x1
/-- `exp (x - max)`. -/
def vExp : FVec Ideal S8192x40 .f32 := exp (subf x (broadcastTo S8192x40 (vMaxCol x) broadcasts_S8192x1_S8192x40))
/-- Each row's `Σ exp`. -/
def vSum : FVec Ideal S8192 .f32 :=
  multiReduction .add [1] S8192 (vExp x) 0x00000000#32 reduces_S8192x40_S8192 (.inl rfl) rfl
/-- `max + log Σ exp`, a column. -/
def vLse : FVec Ideal S8192x1 .f32 := addf (vMaxCol x) (log (shapeCast S8192x1 (vSum x) shapeCasts_S8192_S8192x1))
/-- The log-softmax. -/
def vLogp : FVec Ideal S8192x40 .f32 := subf x (broadcastTo S8192x40 (vLse x) broadcasts_S8192x1_S8192x40)
/-- Each row's loss. -/
def vRow : FVec Ideal S8192 .f32 :=
  subf (broadcast S8192 (Scalar.ofBits .f32 0x00000000#32))
    (multiReduction .add [1] S8192 (mulf t (vLogp x)) 0x00000000#32 reduces_S8192x40_S8192 (.inl rfl) rfl)
/-- The block's total. -/
def vTile : Ideal .f32 :=
  extractAt ![0, 0] (shapeCast S1x1 (multiReduction .add [1] S1 (shapeCast S1x8192 (vRow x t) shapeCasts_S8192_S1x8192)
    0x00000000#32 reduces_S1x8192_S1 (.inl rfl) rfl) shapeCasts_S1_S1x1) inpos_S1x1_p0_0

/-- The value the body stores into the carried total is the old total plus the block's total. -/
theorem pay2_eq (a : Vec Ideal S1x1 .f32) :
    k0_pay2 (F := Ideal) x t a = shapeCast S1x1 (addf a (broadcast S1x1 (vTile x t))) shapeCasts_S1x1_S1x1 := rfl

theorem vMax_apply (k : Fin 8192) : vMax x (ix1 k) = rowMax (row x k) := by
  refine (Ideal.multiReduction_maximumf_single x 0xFF800000#32 reduces_S8192x40_S8192 (.inl rfl) rfl (ix1 k)).trans ?_
  unfold rowMax
  have hb : FloatOps.ofBits (F := Ideal) .f32 0xFF800000#32 = (⊥ : EReal) := neg_inf_word
  rw [hb]
  refine congrArg (fun f : Fin 40 → EReal => (Finset.univ : Finset (Fin 40)).fold max ⊥ f) (funext fun j => ?_)
  exact congrArg x (lift_row _ k j)

theorem vMaxCol_apply (k : Fin 8192) (u : Fin 1) : vMaxCol x (ix2 k u) = rowMax (row x k) :=
  (shapeCast_a_a1_apply (vMax x) shapeCasts_S8192_S8192x1 k u).trans (vMax_apply x k)

theorem bcast_col_apply (v : FVec Ideal S8192x1 .f32) (k : Fin 8192) (j : Fin 40) :
    broadcastTo S8192x40 v broadcasts_S8192x1_S8192x40 (ix2 k j) = v (ix2 k (0 : Fin 1)) :=
  broadcastTo_apply v broadcasts_S8192x1_S8192x40 (ix2 k j) (ix2 k (0 : Fin 1)) (fun a => by
    match a with
    | ⟨0, _⟩ => show k.val = if (8192 : Nat) = 1 then 0 else k.val; rw [if_neg (by decide)]
    | ⟨1, _⟩ => show 0 = if (1 : Nat) = 1 then 0 else j.val; rw [if_pos rfl])

theorem vExp_apply (k : Fin 8192) (j : Fin 40) : vExp x (ix2 k j) = Ideal.exp (row x k j - rowMax (row x k)) := by
  show Ideal.exp (x (ix2 k j) - broadcastTo S8192x40 (vMaxCol x) broadcasts_S8192x1_S8192x40 (ix2 k j)) = _
  rw [bcast_col_apply, vMaxCol_apply]
  rfl

theorem vSum_apply (k : Fin 8192) : vSum x (ix1 k) = ∑ j : Fin 40, Ideal.exp (row x k j - rowMax (row x k)) := by
  refine (Ideal.multiReduction_add_single (vExp x) 0x00000000#32 reduces_S8192x40_S8192 (.inl rfl) rfl (ix1 k)).trans ?_
  refine Finset.sum_congr rfl fun (j : Fin 40) _ => ?_
  exact (congrArg (vExp x) (lift_row _ k j)).trans (vExp_apply x k j)

theorem vLse_apply (k : Fin 8192) (u : Fin 1) : vLse x (ix2 k u) = rowMax (row x k) + logSumExp (row x k) := by
  show vMaxCol x (ix2 k u) + Ideal.log (shapeCast S8192x1 (vSum x) shapeCasts_S8192_S8192x1 (ix2 k u)) = _
  rw [vMaxCol_apply, shapeCast_a_a1_apply, vSum_apply]
  rfl

theorem vLogp_apply (k : Fin 8192) (j : Fin 40) :
    vLogp x (ix2 k j) = row x k j - (rowMax (row x k) + logSumExp (row x k)) := by
  show x (ix2 k j) - broadcastTo S8192x40 (vLse x) broadcasts_S8192x1_S8192x40 (ix2 k j) = _
  rw [bcast_col_apply, vLse_apply]
  rfl

theorem vRow_apply (k : Fin 8192) : vRow x t (ix1 k) = lossLse (row x k) (row t k) := by
  show Ideal.ofBits .f32 0x00000000#32
      - multiReduction .add [1] S8192 (mulf t (vLogp x)) 0x00000000#32 reduces_S8192x40_S8192 (.inl rfl) rfl (ix1 k) = _
  rw [Ideal.ofBits_zero_f32]
  unfold lossLse
  refine congrArg (fun s : EReal => 0 - s) ?_
  refine (Ideal.multiReduction_add_single (mulf t (vLogp x)) 0x00000000#32 reduces_S8192x40_S8192 (.inl rfl) rfl (ix1 k)).trans ?_
  refine Finset.sum_congr rfl fun (j : Fin 40) _ => ?_
  refine (congrArg (mulf t (vLogp x)) (lift_row _ k j)).trans ?_
  show t (ix2 k j) * vLogp x (ix2 k j) = _
  rw [vLogp_apply]
  rfl

/-- The block's total is the sum of its rows' losses. -/
theorem vTile_eq : vTile x t = ∑ k : Fin 8192, lossLse (row x k) (row t k) := by
  unfold vTile extractAt
  have hidx : (fun a : Fin S1x1.rank => (⟨(![0, 0] : Fin 2 → Nat) a, inpos_S1x1_p0_0 a⟩ : Fin (S1x1.size a)))
      = ix2 (0 : Fin 1) (0 : Fin 1) := by
    funext a
    match a with
    | ⟨0, _⟩ => rfl
    | ⟨1, _⟩ => rfl
  rw [hidx, shapeCast_a_a1_apply]
  refine (Ideal.multiReduction_add_single _ 0x00000000#32 reduces_S1x8192_S1 (.inl rfl) rfl (ix1 (0 : Fin 1))).trans ?_
  refine Finset.sum_congr rfl fun (k : Fin 8192) _ => ?_
  refine (congrArg _ (lift_flat _ k)).trans ?_
  rw [shapeCast_a_1a_apply]
  exact vRow_apply x t k

/-- Read at its one index, the stored value is the old total plus the sum of the block's rows' losses. -/
theorem pay2_apply (a : Vec Ideal S1x1 .f32) (y : S1x1.Idx) :
    k0_pay2 (F := Ideal) x t a y = a y + ∑ k : Fin 8192, lossLse (row x k) (row t k) := by
  rw [pay2_eq, shapeCast_self]
  show a y + vTile x t = _
  rw [vTile_eq]

end

end Cert.KernelIdeal.Tile

end
-- ==== Proof.Accumulate.lean ====
/-
  The running total across the grid, and what the kernel's program returns.

  The 256 tiles are dealt to two shares of 128 consecutive tiles. Within a share the 1×1 total starts at zero plus the
  first tile's total and grows by one tile's total per point, so after the share's last tile it holds the sum of the
  share's 128 tile totals; that number is then spread over the share's 8×128 block of the output array. The program
  adds entry (0,0) (first share) and entry (8,0) (second share) and divides by the number of rows.
-/
import proofs.«111683_j20624432956049_1_alg».proof.Proof.Pieces
import proofs.«111683_j20624432956049_1_alg».proof.Proof.TileSum
import Idealize.ShloMosaic.Lib.Pipeline.Value
import Idealize.ShloMosaic.Lib.StableHlo.Run

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.SoftCE

variable (m : (ℓ : Loc nD τ sig) → Buf (Elt Ideal) ℓ) (ρ : Dev nD → PrngReg)

/-- The block of logits and the block of weights that tile `t` loads. -/
abbrev xblk (c : Dev nD) (t : Fin cfg0.N) : FVec Ideal S8192x40 .f32 := iblk m c 0 t
abbrev tblk (c : Dev nD) (t : Fin cfg0.N) : FVec Ideal S8192x40 .f32 := iblk m c 1 t

/-- The running total after tile `n`. -/
def total (c : Dev nD) (n : ℕ) (hn : n < cfg0.N) : FVec Ideal S1x1 .f32 := (outsAt0 m c n hn).2

/-- The value stored at a share's first tile, and the step at every other tile. -/
def firstVal (c : Dev nD) (n : ℕ) (h : n < cfg0.N) : FVec Ideal S1x1 .f32 :=
  k0_pay2 (xblk m c ⟨n, h⟩) (tblk m c ⟨n, h⟩) (k0_pay1 (F := Ideal))
def nextVal (c : Dev nD) (n : ℕ) (h : n < cfg0.N) (acc : FVec Ideal S1x1 .f32) : FVec Ideal S1x1 .f32 :=
  k0_pay2 (xblk m c ⟨n, h⟩) (tblk m c ⟨n, h⟩) acc

theorem total_first (c : Dev nD) (n : ℕ) (hn : n < cfg0.N) (h0 : n % 128 = 0) :
    total m c n hn = firstVal m c n hn := by
  have h1 : ¬(⟨n, hn⟩ : Fin cfg0.N).val % 128 = 127 := by dsimp only; omega
  unfold total firstVal
  rw [outsAt0_A m c ⟨n, hn⟩ h0 h1]
  dsimp only
  exact scratch_first (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) scM0_0 (Memref.isWhole_whole _) _ _ (iblk m c 0 ⟨n, hn⟩) (iblk m c 1 ⟨n, hn⟩)

theorem total_next (c : Dev nD) (n : ℕ) (hn : n + 1 < cfg0.N) (h0 : ¬(n + 1) % 128 = 0) :
    total m c (n + 1) hn = nextVal m c (n + 1) hn (total m c n (Nat.lt_of_succ_lt hn)) := by
  unfold total nextVal
  by_cases h1 : (n + 1) % 128 = 127
  · rw [outsAt0_C m c ⟨n + 1, hn⟩ h0 h1]
    dsimp only
    exact scratch_last (F := Ideal) c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) scM0_0 (Memref.isWhole_whole _) _ _ (iblk m c 0 ⟨n + 1, hn⟩)
      (iblk m c 1 ⟨n + 1, hn⟩) (outsAt0 m c n (Nat.lt_of_succ_lt hn)).2
  · rw [outsAt0_B m c ⟨n + 1, hn⟩ h0 h1]
    dsimp only
    exact scratch_middle (F := Ideal) c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) scM0_0 (Memref.isWhole_whole _) _ _ (iblk m c 0 ⟨n + 1, hn⟩)
      (iblk m c 1 ⟨n + 1, hn⟩) (outsAt0 m c n (Nat.lt_of_succ_lt hn)).2

/-- At a share's last tile the output block is the new total spread over it. -/
theorem out_at_last (c : Dev nD) (t : Fin cfg0.N) (h1 : t.val % 128 = 127) :
    (outsAt0 m c t.val t.isLt).1 = k0_pay3 (F := Ideal) (total m c t.val t.isLt) := by
  have h0 : ¬t.val % 128 = 0 := by omega
  unfold total
  rw [outsAt0_C m c t h0 h1]
  dsimp only
  exact (out_last (F := Ideal) c (grid0.coords t) (ms0_0 t) (hs0_0 t) (ms0_1 t) (hs0_1 t) (ms0_2 t) (hs0_2 t) scM0_0
      (Memref.isWhole_whole _) _ _ (iblk m c 0 t) (iblk m c 1 t) _).trans
    (congrArg (k0_pay3 (F := Ideal)) (scratch_last (F := Ideal) c (grid0.coords t) (ms0_0 t) (hs0_0 t) (ms0_1 t) (hs0_1 t) (ms0_2 t) (hs0_2 t)
      scM0_0 (Memref.isWhole_whole _) _ _ (iblk m c 0 t) (iblk m c 1 t) _).symm)

/-! ## The fold -/

/-- Tile `n`'s total: the sum of its 8192 rows' losses (zero past the grid). -/
def tileLoss (c : Dev nD) (n : ℕ) : EReal :=
  if h : n < cfg0.N then ∑ k : Fin 8192, lossLse (Tile.row (xblk m c ⟨n, h⟩) k) (Tile.row (tblk m c ⟨n, h⟩) k) else 0

theorem pay1_apply (y : S1x1.Idx) : k0_pay1 (F := Ideal) y = 0 := by
  show Ideal.ofBits .f32 0x00000000#32 = 0
  exact Ideal.ofBits_zero_f32

theorem firstVal_apply (c : Dev nD) (n : ℕ) (h : n < cfg0.N) (y : S1x1.Idx) :
    firstVal m c n h y = 0 + tileLoss m c n := by
  unfold firstVal tileLoss
  rw [dif_pos h, Tile.pay2_apply, pay1_apply]

theorem nextVal_apply (c : Dev nD) (n : ℕ) (h : n < cfg0.N) (acc : FVec Ideal S1x1 .f32) (y : S1x1.Idx) :
    nextVal m c n h acc y = acc y + tileLoss m c n := by
  unfold nextVal tileLoss
  rw [dif_pos h, Tile.pay2_apply]

/-- After tile `t` the total is the sum of the tile totals from the start of `t`'s share up to `t`. -/
theorem total_apply (c : Dev nD) (t : ℕ) (ht : t < cfg0.N) (y : S1x1.Idx) :
    total m c t ht y = ∑ s ∈ Finset.range (t % 128 + 1), tileLoss m c (128 * (t / 128) + s) := by
  have h' : 128 * (t / 128) + t % 128 < cfg0.N := by rw [Nat.div_add_mod]; exact ht
  have e1 : total m c t ht = Pipeline.accAt (firstVal m c) (nextVal m c) (128 * (t / 128)) (t % 128) h' :=
    Pipeline.eq_accAt_of_mod (fun n h => total m c n h) 128 (firstVal m c) (nextVal m c) (total_first m c) (total_next m c)
      (by decide) t ht h'
  have hlt : t % 128 < 128 := Nat.mod_lt _ (by decide)
  have e2 := Pipeline.accAt_add_apply (ι := S1x1.Idx) (β := EReal) (firstVal m c) (nextVal m c) (fun _ => 0)
    (fun n _ => tileLoss m c n) (128 * (t / 128)) 127 (fun h i => firstVal_apply m c _ h i)
    (fun n h acc i _ _ => nextVal_apply m c n h acc i) (t % 128) (by omega) h' y
  rw [e1, e2]
  exact zero_add _

/-- A share's total: the sum of its 128 tile totals. -/
def shareLoss (c : Dev nD) (q : ℕ) : EReal := ∑ s ∈ Finset.range 128, tileLoss m c (128 * q + s)

theorem total_at_last (c : Dev nD) (t : Fin cfg0.N) (h1 : t.val % 128 = 127) (y : S1x1.Idx) :
    total m c t.val t.isLt y = shareLoss m c (t.val / 128) := by
  rw [total_apply, h1]
  rfl

/-! ## The output array -/

theorem pay3_apply (v : FVec Ideal S1x1 .f32) (y : S8x128.Idx) : k0_pay3 (F := Ideal) v y = v (ix2 (0 : Fin 1) (0 : Fin 1)) := by
  unfold k0_pay3
  rw [shapeCast_self]
  exact broadcastTo_apply v broadcasts_S1x1_S8x128 y (ix2 (0 : Fin 1) (0 : Fin 1)) (fun a => by
    match a with
    | ⟨0, _⟩ => show 0 = if (1 : Nat) = 1 then 0 else _; rw [if_pos rfl]
    | ⟨1, _⟩ => show 0 = if (1 : Nat) = 1 then 0 else _; rw [if_pos rfl])

/-- What the output array holds in the end: on the rows of share `q`'s block, share `q`'s total. -/
def outArr (c : Dev nD) : FVec Ideal S16x128 .f32 := fun i => shareLoss m c ((i 0).val / 8)

/-- The output's index map, decided over the grid: the block row is the share's number, the block column 0. -/
theorem idx_out : ∀ t : Fin cfg0.N, win0_2.index t (0 : Fin 2) = t.val / 128 ∧ win0_2.index t (1 : Fin 2) = 0 :=
  (by decide +kernel : ∀ t : Fin grid0.N, win0_2.index t (0 : Fin 2) = t.val / 128 ∧ win0_2.index t (1 : Fin 2) = 0)

/-- What a share's last tile writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 128 = 127 := (flush0_2 t).mp hf
  show (cfg0.win 2).cut (grid0.coords t) ((dats m 0 c).after 2 t) = _
  rw [after0_2, out_at_last m c t h1]
  funext j
  show k0_pay3 (F := Ideal) (total m c t.val t.isLt) j = outArr m c (((cfg0.win 2).blk t).view.emb j)
  rw [pay3_apply, total_at_last m c t h1]
  show _ = shareLoss m c ((win0_2.index t (0 : Fin 2) * 8 + 1 * (j 0).val) / 8)
  have hj : (j 0).val < 8 := (j 0).isLt
  rw [(idx_out t).1]
  congr 1
  omega

theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The two write-backs fill the output array. -/
theorem final (c : Dev nD) : (dats m 0 c).arrAt 2 cfg0.N = outArr m c := by
  refine (dats m 0 c).arrAt_eq_of_cover 2 (outArr m c) (flushed_eq m c) fun i => ?_
  have hN : cfg0.N = 256 := N_0
  have hi0 : (i 0).val < 16 := (i 0).isLt
  have hi1 : (i 1).val < 128 := (i 1).isLt
  refine ⟨⟨128 * ((i 0).val / 8) + 127, by rw [hN]; omega⟩, (flush0_2 _).mpr (by dsimp only; omega), ?_⟩
  rw [mem_blk]
  obtain ⟨e0, e1⟩ := idx_out ⟨128 * ((i 0).val / 8) + 127, by rw [hN]; omega⟩
  intro a
  match a with
  | ⟨0, _⟩ =>
    show win0_2.index _ (0 : Fin 2) * 8 ≤ (i 0).val ∧ (i 0).val < win0_2.index _ (0 : Fin 2) * 8 + 8
    rw [e0]; dsimp only; omega
  | ⟨1, _⟩ =>
    show win0_2.index _ (1 : Fin 2) * 128 ≤ (i 1).val ∧ (i 1).val < win0_2.index _ (1 : Fin 2) * 128 + 128
    rw [e1]; omega

end Cert.KernelIdeal.Acc

end
-- ==== Proof.KernelRun.lean ====
/-
  The kernel's program, run: its result is the two shares' totals added and divided by the number of rows, and the
  two shares' totals together are the sum over all 256 tiles of each tile's rows' losses, tile `n` holding rows
  `8192·n … 8192·n + 8191` of the two argument arrays.
-/
import proofs.«111683_j20624432956049_1_alg».proof.Proof.Accumulate
import Idealize.ShloMosaic.Lib.StableHlo.Run

noncomputable section

namespace Cert.KernelIdeal.Acc

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.SoftCE

variable (m : (ℓ : Loc nD τ sig) → Buf (Elt Ideal) ℓ) (ρ : Dev nD → PrngReg)

/-- What the program returns. -/
def result (c : Dev nD) : Buf (Elt Ideal) ((c.tc : Thread nD τ).loc main_v6) :=
  fun _ => Ideal.div (shareLoss m c 0 + shareLoss m c 1) (Ideal.ofBits .f32 0x4A000000#32)

/-- A 1×1 array reshaped to a scalar is its one entry. -/
theorem scalar_of_1x1 {α : Type} (x : S1x1.Idx → α) (h : S1x1.ShapeCasts S_) (i : S_.Idx) :
    shapeCast S_ x h i = x (ix2 (0 : Fin 1) (0 : Fin 1)) :=
  shapeCast_apply x h i (ix2 (0 : Fin 1) (0 : Fin 1)) (by
    have h1 : (S_.rowMajor i).val < 1 := (S_.rowMajor i).isLt
    rw [Shape.rowMajor_val_two]
    show 0 * 1 + 0 = _
    omega)

/-- The 1×1 slice of the output array at row offset `o`, column offset 0, is its entry `(o, 0)`. -/
theorem corner_apply (o : ℕ) (ho : o < 16) (X : FVec Ideal S16x128 .f32) (h : S16x128.Slices ![o, 0] S1x1) :
    extractStridedSlice S1x1 ![o, 0] X h (ix2 (0 : Fin 1) (0 : Fin 1)) = X (ix2 (⟨o, ho⟩ : Fin 16) (0 : Fin 128)) :=
  extractStridedSlice_apply ![o, 0] X h (ix2 (0 : Fin 1) (0 : Fin 1)) (ix2 (⟨o, ho⟩ : Fin 16) (0 : Fin 128)) (fun a => by
    match a with
    | ⟨0, _⟩ => show o = o + 0; omega
    | ⟨1, _⟩ => show 0 = 0 + 0; rfl)

/-- The host operations after the region, run from the region's exit: the two corner entries added, over the row count. -/
theorem tail_eq (c : Dev nD) : Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v0)
      = outArr m c := (Pipeline.withArrays_arr spec0 launch0.win.arr_inj c _ _ 2).trans (final m c)
  rw [hw]
  funext i
  show Ideal.div (shapeCast S_ (extractStridedSlice S1x1 ![0, 0] (outArr m c) slices_S16x128_S1x1_0_0) shapeCasts_S1x1_S_ i
      + shapeCast S_ (extractStridedSlice S1x1 ![8, 0] (outArr m c) slices_S16x128_S1x1_8_0) shapeCasts_S1x1_S_ i)
      (Ideal.ofBits .f32 0x4A000000#32) = _
  rw [scalar_of_1x1, scalar_of_1x1, corner_apply 0 (by decide) (outArr m c), corner_apply 8 (by decide) (outArr m c)]
  rfl

/-- The program's run: the result, and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## The tiles' rows are the arrays' rows -/

/-- The two argument arrays, as 256 groups of 8192 rows of 40. -/
abbrev logits (c : Dev nD) : (⟨2, ![256 * 8192, 40]⟩ : Shape).Idx → EReal := m ((c.tc : Thread nD τ).loc main_arg0)
abbrev weights (c : Dev nD) : (⟨2, ![256 * 8192, 40]⟩ : Shape).Idx → EReal := m ((c.tc : Thread nD τ).loc main_arg1)

/-- The input windows' index maps, decided over the grid: tile `t` is block row `t`, block column 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem xblk_row (c : Dev nD) (t : Fin cfg0.N) (n : Fin 256) (hn : n.val = t.val) (k : Fin 8192) :
    Tile.row (xblk m c t) k = rowAt (logits m c) (rowOf n k) := by
  funext j
  show V m c main_arg0 (((cfg0.win 0).blk t).view.emb (ix2 k j)) = logits m c (ix2 (rowOf n k) j)
  rw [V_main_arg0]
  refine congrArg (m ((c.tc : Thread nD τ).loc main_arg0)) (funext fun a => Fin.ext ?_)
  obtain ⟨e0, e1, -, -⟩ := idx_in t
  match a with
  | ⟨0, _⟩ => show win0_0.index t (0 : Fin 2) * 8192 + 1 * k.val = (rowOf n k).val; rw [rowOf_val, e0, hn]; omega
  | ⟨1, _⟩ => show win0_0.index t (1 : Fin 2) * 40 + 1 * j.val = j.val; rw [e1]; omega

theorem tblk_row (c : Dev nD) (t : Fin cfg0.N) (n : Fin 256) (hn : n.val = t.val) (k : Fin 8192) :
    Tile.row (tblk m c t) k = rowAt (weights m c) (rowOf n k) := by
  funext j
  show V m c main_arg1 (((cfg0.win 1).blk t).view.emb (ix2 k j)) = weights m c (ix2 (rowOf n k) j)
  rw [V_main_arg1]
  refine congrArg (m ((c.tc : Thread nD τ).loc main_arg1)) (funext fun a => Fin.ext ?_)
  obtain ⟨-, -, e0, e1⟩ := idx_in t
  match a with
  | ⟨0, _⟩ => show win0_1.index t (0 : Fin 2) * 8192 + 1 * k.val = (rowOf n k).val; rw [rowOf_val, e0, hn]; omega
  | ⟨1, _⟩ => show win0_1.index t (1 : Fin 2) * 40 + 1 * j.val = j.val; rw [e1]; omega

/-- Tile `n`'s total is group `n`'s share of the arrays' rows. -/
theorem tileLoss_eq (c : Dev nD) (n : Fin 256) : tileLoss m c n.val = groupLoss (logits m c) (weights m c) n := by
  have hN : cfg0.N = 256 := N_0
  have h : n.val < cfg0.N := by rw [hN]; exact n.isLt
  unfold tileLoss groupLoss
  rw [dif_pos h]
  refine Finset.sum_congr rfl fun (k : Fin 8192) _ => ?_
  rw [xblk_row m c ⟨n.val, h⟩ n rfl k, tblk_row m c ⟨n.val, h⟩ n rfl k]

/-- The two shares' totals together are all 256 groups' shares. -/
theorem shares_eq (c : Dev nD) :
    shareLoss m c 0 + shareLoss m c 1 = ∑ n : Fin 256, groupLoss (logits m c) (weights m c) n := by
  unfold shareLoss
  have e : ∑ s ∈ Finset.range 128, tileLoss m c (128 * 0 + s) + ∑ s ∈ Finset.range 128, tileLoss m c (128 * 1 + s)
      = ∑ s ∈ Finset.range (128 + 128), tileLoss m c s := by
    rw [Finset.sum_range_add]
    simp only [Nat.mul_zero, Nat.zero_add, Nat.mul_one]
  rw [e, ← Fin.sum_univ_eq_sum_range (fun s => tileLoss m c s) (128 + 128)]
  exact Finset.sum_congr rfl fun n _ => tileLoss_eq m c n

end Cert.KernelIdeal.Acc

end
-- ==== Proof.RefValue.lean ====
/-
  The reference, read row by row.

  The reference shifts each row of logits by its maximum `M`, takes `L = log Σ exp` of the shifted row, forms the
  log-softmax as `(x - M) - L`, multiplies by the weights, sums each row, negates, sums all rows and divides by the
  number of rows. Read at an index, each stage of it is the corresponding piece of the row-by-row loss.
-/
import proofs.«111683_j20624432956049_1_alg».proof.Proof.RefRead
import proofs.«111683_j20624432956049_1_alg».proof.Proof.RowLoss
import Idealize.ShloMosaic.Lib.ValueIdx
import Idealize.ShloMosaic.PureOps.Reduce
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP Cert.SoftCE

/-- Row `R` of an array of 2097152 rows of 40. -/
def row (X : FVec Ideal S2097152x40 .f32) (R : Fin 2097152) : Fin 40 → EReal := fun j => X (ix2 R j)

theorem lift_row (h : S2097152x40.Reduces [1] S2097152) (R : Fin 2097152) (j : Fin 40) : h.lift (ix1 R) j = ix2 R j := by
  funext c
  apply Fin.ext
  match c with
  | ⟨0, _⟩ => rfl
  | ⟨1, _⟩ => rfl

theorem neg_inf_word : Ideal.ofBits .f32 0xFF800000#32 = ⊥ := by simp [Ideal.ofBits, Ideal.ieee]

/-- A sum over the indices of a vector is the sum over its positions. -/
theorem sum_idx1 {M : Type*} [AddCommMonoid M] {n : ℕ} (f : (⟨1, ![n]⟩ : Shape).Idx → M) :
    ∑ j, f j = ∑ a : Fin n, f (ix1 a) :=
  (Fintype.sum_equiv (⟨fun a => ix1 a, fun j => j 0, fun _ => rfl, fun j => (eq_ix1 j).symm⟩ : Fin n ≃ (⟨1, ![n]⟩ : Shape).Idx)
    _ _ (fun _ => rfl)).symm

section
variable (X T : FVec Ideal S2097152x40 .f32)

/-- The row maximum the reference shifts by. -/
theorem ref_max (R : Fin 2097152) : val_main_call0_v2 (F := Ideal) X (ix1 R) = rowMax (row X R) := by
  rw [val_main_call0_v2_apply, val_main_call0_v1_apply, val_main_call0_cst_0_apply]
  show max (Ideal.ofBits .f32 0xFF800000#32) (val_main_call0_v0 (F := Ideal) X (ix1 R)) = _
  rw [neg_inf_word, max_eq_right bot_le]
  unfold val_main_call0_v0
  refine (Host.reduce_eq_fold_single FloatOps.maximumf X (val_main_call0_cst (F := Ideal)) reducesTo_S2097152x40_S2097152_d1
    (by decide) h_S_ (ix1 R)).trans ?_
  unfold rowMax
  show (Finset.univ : Finset (Fin 40)).fold max (Ideal.ofBits .f32 0xFF800000#32) (X ∘ _) = _
  rw [neg_inf_word]
  refine congrArg (fun f : Fin 40 → EReal => (Finset.univ : Finset (Fin 40)).fold max ⊥ f) (funext fun j => ?_)
  exact congrArg X (lift_row _ R j)

/-- The shifted logits. -/
theorem ref_shift (R : Fin 2097152) (k : Fin 40) :
    val_main_call0_v5 (F := Ideal) X (ix2 R k) = row X R k - rowMax (row X R) := by
  rw [val_main_call0_v5_apply, val_main_call0_v4_apply, val_main_call0_v3_apply]
  have e : idx_main_call0_v3 (idx_main_call0_v4 (ix2 R k)) = ix1 R := by
    funext a
    match a with
    | ⟨0, _⟩ => rfl
  rw [e, ref_max]
  rfl

/-- The log of the sum of their exponentials. -/
theorem ref_lse (R : Fin 2097152) (k : Fin 40) :
    val_main_call0_v10 (F := Ideal) X (ix2 R k) = logSumExp (row X R) := by
  rw [val_main_call0_v10_apply, val_main_call0_v9_apply, val_main_call0_v8_apply]
  have e : idx_main_call0_v8 (idx_main_call0_v10 (ix2 R k)) = ix1 R := by
    funext a
    match a with
    | ⟨0, _⟩ => rfl
  rw [e, val_main_call0_v7_apply, val_main_call0_cst_1_apply]
  unfold logSumExp
  show Ideal.log (Ideal.ofBits .f32 0x00000000#32 + ∑ k' : Fin 40, val_main_call0_v6 (F := Ideal) X (idx_main_call0_v7 (ix1 R) k')) = _
  rw [Ideal.ofBits_zero_f32, zero_add]
  refine congrArg Ideal.log (Finset.sum_congr rfl fun (j : Fin 40) _ => ?_)
  have e7 : idx_main_call0_v7 (ix1 R) j = ix2 R j := by
    funext a
    match a with
    | ⟨0, _⟩ => rfl
    | ⟨1, _⟩ => rfl
  rw [e7, val_main_call0_v6_apply, ref_shift]
  rfl

/-- One row's loss. -/
theorem ref_row (R : Fin 2097152) : val_main_v3 (F := Ideal) X T (ix1 R) = lossShift (row X R) (row T R) := by
  rw [val_main_v3_apply, val_main_v2_apply, val_main_cst_apply]
  show -(Ideal.ofBits .f32 0x00000000#32 + ∑ k : Fin 40, val_main_v1 (F := Ideal) X T (idx_main_v2 (ix1 R) k)) = _
  rw [Ideal.ofBits_zero_f32, zero_add]
  unfold lossShift
  refine congrArg Neg.neg (Finset.sum_congr rfl fun (j : Fin 40) _ => ?_)
  have e2 : idx_main_v2 (ix1 R) j = ix2 R j := by
    funext a
    match a with
    | ⟨0, _⟩ => rfl
    | ⟨1, _⟩ => rfl
  rw [e2, val_main_v1_apply, val_main_v0_apply, ref_shift, ref_lse]
  rfl

/-- The reference's result: the sum of all rows' losses over the row count. -/
theorem ref_value (i : S_.Idx) : val_main_v5 (F := Ideal) X T i
    = Ideal.div (∑ R : Fin 2097152, lossShift (row X R) (row T R)) (Ideal.ofBits .f32 0x4A000000#32) := by
  have hs : ∑ j : S2097152.Idx, val_main_v3 (F := Ideal) X T j = ∑ R : Fin 2097152, lossShift (row X R) (row T R) := by
    rw [sum_idx1]
    exact Finset.sum_congr rfl fun R _ => ref_row X T R
  rw [val_main_v5_apply, val_main_v4_apply, val_main_cst_1_apply, val_main_cst_0_apply, hs, Ideal.hostDivf_def,
    Ideal.ofBits_def, Ideal.ofBits_def, Ideal.ofBits_zero_f32, zero_add]

end

end Cert.ReferenceIdeal.RefValue

end
-- ==== Proof.lean ====
/-
  Soft-label cross entropy, mean over 2097152 rows of 40 classes: a streaming kernel against jnp.

  Both programs compute  (1/N) · Σ_r ( -Σ_j t[r,j] · log_softmax(x[r,:])_j ).  They differ in three ways, none of which
  changes the value on the extended reals once every logit is a real number (which the precondition says):

  * the log-softmax is grouped `x - (M + L)` in the kernel and `(x - M) - L` in the reference, `M` the row's maximum
    and `L = log Σ exp (x - M)`; with `M` real, `-(M + L) = -M - L` whatever `L` is (Proof/RowLoss.lean);
  * a row's sign is taken as `0 - s` in the kernel and `-s` in the reference;
  * the kernel sums the rows tile by tile (8192 rows each) into a running total, 128 tiles per share, and adds the two
    shares' totals at the end, where the reference sums all rows at once: addition of extended reals is commutative and
    associative, so any grouping of the rows gives the same sum.

  The kernel's frames are the generated ones; its value is read off the generated frame run: what each case of the body
  leaves in the carried 1×1 total (Proof/Pieces.lean), the tile's total as a sum of row losses (Proof/TileSum.lean), the
  fold over a share's tiles and the output array (Proof/Accumulate.lean), the host operations after the region and the
  tiles' rows as the arrays' rows (Proof/KernelRun.lean). The reference's run and its stages read at an index are copies
  of the generated modules (Proof/RefRun.lean, Proof/RefRead.lean); Proof/RefValue.lean reads them row by row. The word
  `0x4A000000` the two programs divide by is the same on both sides and is never evaluated.
-/
import proofs.«111683_j20624432956049_1_alg».proof.Defs
import proofs.«111683_j20624432956049_1_alg».proof.Proof.Gen.Kernel
import proofs.«111683_j20624432956049_1_alg».proof.Proof.Gen.Kernel.Skeleton
import proofs.«111683_j20624432956049_1_alg».proof.Proof.Gen.Kernel.Launch
import proofs.«111683_j20624432956049_1_alg».proof.Proof.Gen.Kernel.Points
import proofs.«111683_j20624432956049_1_alg».proof.Proof.Gen.Kernel.Frame
import proofs.«111683_j20624432956049_1_alg».proof.Proof.Gen.KernelIdeal
import proofs.«111683_j20624432956049_1_alg».proof.Proof.Gen.KernelIdeal.Skeleton
import proofs.«111683_j20624432956049_1_alg».proof.Proof.Gen.KernelIdeal.Launch
import proofs.«111683_j20624432956049_1_alg».proof.Proof.Gen.KernelIdeal.Points
import proofs.«111683_j20624432956049_1_alg».proof.Proof.Gen.KernelIdeal.Frame
import proofs.«111683_j20624432956049_1_alg».proof.Proof.Gen.ReferenceIdeal
import proofs.«111683_j20624432956049_1_alg».proof.Proof.Gen.Pre_finite_inputs
import proofs.«111683_j20624432956049_1_alg».proof.Proof.FiniteInputs
import proofs.«111683_j20624432956049_1_alg».proof.Proof.KernelRun
import proofs.«111683_j20624432956049_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the sum of all rows' losses over the row count: the kernel's two shares' totals are the 256
    tiles' totals (`shares_eq`), which with real logits add up to the sum over all rows (`sum_groupLoss`), the reference's
    result (`ref_value`). -/
theorem algebraic : Cert.algebraic_KernelIdeal_ReferenceIdeal := by
  intro m ρ m' ρ' hpre hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v5_eq, (hagree c).1, (hagree c).2]
  funext i
  rw [Cert.ReferenceIdeal.RefValue.ref_value]
  show _ = Ideal.div (Cert.KernelIdeal.Acc.shareLoss m c 0 + Cert.KernelIdeal.Acc.shareLoss m c 1) _
  rw [Cert.KernelIdeal.Acc.shares_eq,
    Cert.SoftCE.sum_groupLoss _ _ (0 : Fin 40) (fun j => Cert.SoftCE.input_real _ _ (hpre c) j)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
